-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S512x6400 : Shape := ⟨2, ![512, 6400]⟩
abbrev S512x1 : Shape := ⟨2, ![512, 1]⟩
abbrev S1x6400 : Shape := ⟨2, ![1, 6400]⟩
abbrev S512 : Shape := ⟨1, ![512]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x6400, .f32⟩
  | .local _ .vmem, ⟨1, _⟩ => ⟨S512x6400, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v32 : BitVec 1 := Scalar.cmpi .eq arg1 c4_i32
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x6400_S512x6400_0_0 : ∀ a, (![0, 0] : Fin 2 → Nat) a + S512x6400.size a ≤ S512x6400.size a
  h_S512x6400 : 0 < S512x6400.numel
  iota_S1x6400_d1_w32 : S1x6400.Iotas .tc 32 [1]
  broadcasts_S1x6400_S512x6400 : S1x6400.Broadcasts S512x6400
  broadcasts_S512x1_S512x6400 : S512x1.Broadcasts S512x6400
  reduces_S512x6400_S512 : S512x6400.Reduces [1] S512
  shapeCasts_S512_S512x1 : S512.ShapeCasts S512x1
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S8192x32000.size a
  hwx0_0 : ∀ i : grid0.Coords, EltTy.bits .f32 = 32 ∨ (Rect.block (s := S8192x32000) S512x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_arg0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S_, .i32⟩
  | .hbm, ⟨4, _⟩ => ⟨S8192x1, .i32⟩
  | .hbm, ⟨5, _⟩ => ⟨S8192x1, .i1⟩
  | .hbm, ⟨6, _⟩ => ⟨S_, .i32⟩
  | .hbm, ⟨7, _⟩ => ⟨S8192x1, .i32⟩
  | .hbm, ⟨8, _⟩ => ⟨S8192x1, .i32⟩
  | .hbm, ⟨9, _⟩ => ⟨S8192x1, .i32⟩
  | .hbm, ⟨10, _⟩ => ⟨S8192x1x1, .i32⟩
  | .hbm, ⟨11, _⟩ => ⟨S1, .i32⟩
  | .hbm, ⟨12, _⟩ => ⟨S_, .i32⟩
  | .hbm, ⟨13, _⟩ => ⟨S8192x1x1, .i32⟩
  | .hbm, ⟨14, _⟩ => ⟨S8192x1x1, .i1⟩
  | .hbm, ⟨15, _⟩ => ⟨S1x1x1, .i32⟩
  | .hbm, ⟨16, _⟩ => ⟨S8192x1x1, .i32⟩
  | .hbm, ⟨17, _⟩ => ⟨S8192x1x1, .i1⟩
  | .hbm, ⟨18, _⟩ => ⟨S8192x1x1, .i1⟩
  | .hbm, ⟨19, _⟩ => ⟨S_, .i1⟩
  | .hbm, ⟨20, _⟩ => ⟨S8192x1, .i1⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192, .f32⟩
  | .hbm, ⟨26, _⟩ => ⟨S_, .f32⟩
  | .hbm, ⟨27, _⟩ => ⟨S8192x32000, .f32⟩
  | .hbm, ⟨28, _⟩ => ⟨S8192x32000, .f32⟩
  | .hbm, ⟨29, _⟩ => ⟨S8192x32000, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_cst_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  shapeCasts_S8192x1_S8192 : S8192x1.ShapeCasts S8192
  bcast_S_S8192x32000 : S_.BroadcastsInDim S8192x32000 (![] : Fin 0 → Fin S8192x32000.rank)
  reducesTo_S8192x32000_S8192_d1 : S8192x32000.ReducesTo [1] S8192
  bcast_S_S8192 : S_.BroadcastsInDim S8192 (![] : Fin 0 → Fin S8192.rank)
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.KernelPieces.lean ====
/-
  What one grid point leaves in the two accumulators and in the output block, case by case.

  The kernel keeps two [512, 1] accumulators across the five column tiles of a row tile: the label logit gathered so far
  (the first scratch) and the sum of exps so far (the second). At the first column tile both are stored as zero and then
  updated; at the other tiles they are updated from what the tile before left; at the last tile the output block is
  stored from the two updated accumulators. Each statement below reads the stores the body's run found back as ONE
  value: the update's arithmetic (the skeleton's payload) of the point's input blocks and of the accumulators' previous
  contents.
-/
import proofs.«420632_j83451214561473_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-! ## The first column tile: both accumulators reset, then updated -/

/-- The label-logit accumulator after the first tile: the update of the zero block. -/
theorem ly_A (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x6400 .f32) (x1 : Vec F S512x1 .i32) :
    sout0_A_0 c i arg2 harg2 arg3 harg3 arg4 harg4 arg5 harg5 arg6 harg6 hc0 hc1 x0 x1 = k0_pay5 i x0 x1 k0_pay2 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, harg5.read_unread, harg6.read_unread, View.ld_unit_zero (S := S512x6400) hz, View.ld_unit_zero (S := S512x1) hz, View.readCov_unit_zero (S := S512x1) _ hz]

/-- The sum-of-exps accumulator after the first tile: the update of the zero block. -/
theorem se_A (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x6400 .f32) (x1 : Vec F S512x1 .i32) :
    sout0_A_1 c i arg2 harg2 arg3 harg3 arg4 harg4 arg5 harg5 arg6 harg6 hc0 hc1 x0 x1 = k0_pay4 x0 k0_pay3 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, harg5.read_unread, harg6.read_unread, View.ld_unit_zero (S := S512x6400) hz, View.ld_unit_zero (S := S512x1) hz, View.readCov_unit_zero (S := S512x1) _ hz]

/-! ## A middle column tile: both accumulators updated from what the tile before left -/

theorem ly_B (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x6400 .f32) (x1 : Vec F S512x1 .i32) (xs0 xs1 : Vec F S512x1 .f32) :
    sout0_B_0 c i arg2 harg2 arg3 harg3 arg4 harg4 arg5 harg5 arg6 harg6 hc0 hc1 x0 x1 xs0 xs1 = k0_pay5 i x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread, View.ld_unit_zero (S := S512x6400) hz, View.ld_unit_zero (S := S512x1) hz, View.readCov_unit_zero (S := S512x1) _ hz]

theorem se_B (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x6400 .f32) (x1 : Vec F S512x1 .i32) (xs0 xs1 : Vec F S512x1 .f32) :
    sout0_B_1 c i arg2 harg2 arg3 harg3 arg4 harg4 arg5 harg5 arg6 harg6 hc0 hc1 x0 x1 xs0 xs1 = k0_pay4 x0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread, View.ld_unit_zero (S := S512x6400) hz, View.ld_unit_zero (S := S512x1) hz, View.readCov_unit_zero (S := S512x1) _ hz]

/-! ## The last column tile: the accumulators updated, and the output block stored from the updated pair -/

theorem ly_C (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x6400 .f32) (x1 : Vec F S512x1 .i32) (xs0 xs1 : Vec F S512x1 .f32) :
    sout0_C_0 c i arg2 harg2 arg3 harg3 arg4 harg4 arg5 harg5 arg6 harg6 hc0 hc1 x0 x1 xs0 xs1 = k0_pay5 i x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread, View.ld_unit_zero (S := S512x6400) hz, View.ld_unit_zero (S := S512x1) hz, View.readCov_unit_zero (S := S512x1) _ hz]

theorem se_C (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x6400 .f32) (x1 : Vec F S512x1 .i32) (xs0 xs1 : Vec F S512x1 .f32) :
    sout0_C_1 c i arg2 harg2 arg3 harg3 arg4 harg4 arg5 harg5 arg6 harg6 hc0 hc1 x0 x1 xs0 xs1 = k0_pay4 x0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread, View.ld_unit_zero (S := S512x6400) hz, View.ld_unit_zero (S := S512x1) hz, View.readCov_unit_zero (S := S512x1) _ hz]

/-- The output block at the last tile: the closing arithmetic of the two accumulators as this point's updates leave them. -/
theorem out_C (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x6400 .f32) (x1 : Vec F S512x1 .i32) (xs0 xs1 : Vec F S512x1 .f32) :
    out0_C_2 c i arg2 harg2 arg3 harg3 arg4 harg4 arg5 harg5 arg6 harg6 hc0 hc1 x0 x1 xs0 xs1 = k0_pay1 (k0_pay5 i x0 x1 xs0) (k0_pay4 x0 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread, View.ld_unit_zero (S := S512x6400) hz, View.ld_unit_zero (S := S512x1) hz, View.readCov_unit_zero (S := S512x1) _ hz]

end Cert.KernelIdeal.Pieces

end
-- ==== Proof.LossAlgebra.lean ====
/-
  The margin-softmax loss over the extended reals, with no program in sight.

  For a row x of C = 32000 logits and its label l the loss term is
      a = log ( exp(4·x_l) / ( Σ_k exp(x_k / 4) − exp(x_l / 4) + exp(4·x_l) ) ),
  and the loss is the mean of −a over the 8192 rows. One program negates each row and then takes the mean
  ( (0 + Σ_p (0 − a_p)) / 8192 ), the other takes the mean and then negates ( −((0 + Σ_p a_p) / 8192) ).
  On the extended reals the two agree only when no +∞ meets a −∞ in the sum; here every a_p is a REAL number as soon
  as the logits are: each exp is a positive real, the row's sum of exps is at least its own term exp(x_l / 4), so the
  denominator is at least exp(4·x_l) > 0, the quotient is a positive real and its log a real. Then both forms are the
  one real number −(Σ_p a_p) / 8192.

  The float words the two programs share are read here once (0.25, 4.0, 8192.0; the zero word is the library's).
-/
import Idealize.ShloMosaic.PureOps.Ideal.Laws
import Idealize.ShloMosaic.Lib.ValueIdx

noncomputable section

namespace Cert.MarginLoss

open Idealize.ShloMosaic Idealize.ShloMosaic.ValueIdx

/-! ## The float words -/

/-- The word of 0.25 is the real 1/4. -/
theorem ofBits_quarter : Ideal.ofBits .f32 0x3E800000#32 = (((1 : ℝ) / 4 : ℝ) : EReal) := by
  simp [Ideal.ofBits, Ideal.ieee, -EReal.coe_mul]; norm_num

/-- The word of 4.0 is the real 4. -/
theorem ofBits_four : Ideal.ofBits .f32 0x40800000#32 = ((4 : ℝ) : EReal) := by
  simp [Ideal.ofBits, Ideal.ieee, -EReal.coe_mul]; norm_num

/-- The word of 8192.0 is the real 8192. -/
theorem ofBits_8192 : Ideal.ofBits .f32 0x46000000#32 = ((8192 : ℝ) : EReal) := by
  simp [Ideal.ofBits, Ideal.ieee, -EReal.coe_mul]; norm_num

/-! ## Sums of reals read as extended reals -/

/-- A finite sum of reals, each read as an extended real, is the real sum read as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## One row -/

/-- The row's sum of exps of the logits over four. -/
def sumExp (x : Fin 32000 → EReal) : EReal := ∑ k : Fin 32000, Ideal.exp (x k * Ideal.ofBits .f32 0x3E800000#32)

/-- The row's term: the log of exp(4·y) over (S − exp(y/4) + exp(4·y)), for the row's sum S and its label logit y. -/
def logRatio (S y : EReal) : EReal :=
  Ideal.log (Ideal.div (Ideal.exp (y * Ideal.ofBits .f32 0x40800000#32))
    (S - Ideal.exp (y * Ideal.ofBits .f32 0x3E800000#32) + Ideal.exp (y * Ideal.ofBits .f32 0x40800000#32)))

/-- For real logits the row's term is a real number. -/
theorem logRatio_real (x : Fin 32000 → EReal) (l : Fin 32000) (hx : ∀ k, ∃ r : ℝ, x k = (r : EReal)) :
    ∃ r : ℝ, logRatio (sumExp x) (x l) = (r : EReal) := by
  choose r hr using hx
  have hS : sumExp x = ((∑ k : Fin 32000, Real.exp (r k * (1 / 4)) : ℝ) : EReal) := by
    unfold sumExp
    rw [← coe_sum]
    refine Finset.sum_congr rfl fun k _ => ?_
    rw [hr k, ofBits_quarter, ← EReal.coe_mul, Ideal.exp_coe]
  have hle : Real.exp (r l * (1 / 4)) ≤ ∑ k : Fin 32000, Real.exp (r k * (1 / 4)) :=
    Finset.single_le_sum (f := fun k => Real.exp (r k * (1 / 4))) (fun k _ => (Real.exp_pos _).le) (Finset.mem_univ l)
  have hnum : 0 < Real.exp (r l * 4) := Real.exp_pos _
  set s : ℝ := ∑ k : Fin 32000, Real.exp (r k * (1 / 4)) with hs
  have hden : 0 < s - Real.exp (r l * (1 / 4)) + Real.exp (r l * 4) := by linarith
  have hq : 0 < Real.exp (r l * 4) * (1 / (s - Real.exp (r l * (1 / 4)) + Real.exp (r l * 4))) :=
    mul_pos hnum (one_div_pos.mpr hden)
  refine ⟨Real.log (Real.exp (r l * 4) * (1 / (s - Real.exp (r l * (1 / 4)) + Real.exp (r l * 4)))), ?_⟩
  unfold logRatio
  rw [hS, hr l, ofBits_quarter, ofBits_four, ← EReal.coe_mul, ← EReal.coe_mul, Ideal.exp_coe, Ideal.exp_coe,
    ← EReal.coe_sub, ← EReal.coe_add, Ideal.div_coe (ne_of_gt hden), ← EReal.coe_mul, Ideal.log_coe, if_neg (not_le.mpr hq)]

/-! ## The mean over the rows, negated before or after -/

/-- Negating each real term and then taking the mean of the zero-initialised sum is taking the mean and then negating. -/
theorem mean_neg_eq_neg_mean {n : ℕ} (a : Fin n → EReal) (ha : ∀ p, ∃ r : ℝ, a p = (r : EReal)) :
    Ideal.div (Ideal.ofBits .f32 0x00000000#32 + ∑ p : Fin n, (Ideal.ofBits .f32 0x00000000#32 - a p))
        (Ideal.ofBits .f32 0x46000000#32)
      = -(Ideal.div (Ideal.ofBits .f32 0x00000000#32 + ∑ p : Fin n, a p) (Ideal.ofBits .f32 0x46000000#32)) := by
  choose r hr using ha
  have h1 : ∑ p : Fin n, (Ideal.ofBits .f32 0x00000000#32 - a p) = ((∑ p : Fin n, -(r p) : ℝ) : EReal) := by
    rw [← coe_sum]
    refine Finset.sum_congr rfl fun p _ => ?_
    rw [hr p, Ideal.ofBits_zero_f32, zero_sub, EReal.coe_neg]
  have h2 : ∑ p : Fin n, a p = ((∑ p : Fin n, r p : ℝ) : EReal) := by
    rw [← coe_sum]
    exact Finset.sum_congr rfl fun p _ => hr p
  rw [h1, h2, Ideal.ofBits_zero_f32, zero_add, zero_add, ofBits_8192, Ideal.div_coe (by norm_num : (8192 : ℝ) ≠ 0),
    Ideal.div_coe (by norm_num : (8192 : ℝ) ≠ 0), Finset.sum_neg_distrib, EReal.coe_neg, EReal.neg_mul]

end Cert.MarginLoss

end
-- ==== Proof.KernelRows.lean ====
/-
  The kernel's arithmetic read at one row of a [512, 1] block, on the extended reals.

  At row r of the block: the sum-of-exps update adds to the accumulator's entry the tile's lane sum Σ_k exp(x(r, k) / 4);
  the label-logit update adds Σ_k [k = label(r) − 6400·j] · x(r, k), the mask written as a select against zero and tested
  in the tile's own frame; the closing arithmetic is 0 − log( exp(4·y) / (S − exp(y / 4) + exp(4·y)) ) of the two
  accumulators' entries y and S. The reset blocks are zero everywhere.
-/
import proofs.«420632_j83451214561473_3_alg».proof.Proof.Gen.KernelIdeal.Skeleton
import proofs.«420632_j83451214561473_3_alg».proof.Proof.LossAlgebra
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Idealize.ShloMosaic Idealize.ShloMosaic.ValueIdx
open Cert.KernelIdeal Cert.KernelIdeal.Gen

section Layout
variable {α : Type}

/-- A vector of n entries viewed as an [n, 1] column reads (r, 0) at r. -/
theorem col_of_vec_apply {n : ℕ} (v : (⟨1, ![n]⟩ : Shape).Idx → α) (h : (⟨1, ![n]⟩ : Shape).ShapeCasts ⟨2, ![n, 1]⟩) (r : Fin n) :
    shapeCast ⟨2, ![n, 1]⟩ v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane sum of a [512, 6400] block, read at row r, is the sum over the 6400 columns of that row. -/
theorem laneSum_apply (v : FVec Ideal S512x6400 .f32) (h : S512x6400.Reduces [1] S512) (hφ : FKind.Formats .f32)
    (hacc : (0x00000000#32 : BitVec 32) = FKind.add.neutral .f32 hφ) (r : Fin 512) :
    multiReduction (F := Ideal) .add [1] S512 v 0x00000000#32 h hφ hacc (ix1 r) = ∑ k : Fin 6400, v (ix2 r k) := by
  refine (Ideal.multiReduction_add_single v _ h hφ hacc (ix1 r)).trans ?_
  exact Finset.sum_congr rfl fun k _ => congrArg v (funext fun a => Fin.ext (by match a with | ⟨0, _⟩ => rfl | ⟨1, _⟩ => rfl))

/-- The two reset blocks are zero everywhere. -/
theorem pay2_apply (y : S512x1.Idx) : (k0_pay2 (F := Ideal)) y = Ideal.ofBits .f32 0x00000000#32 := by
  unfold k0_pay2; rw [shapeCast_self]; rfl
theorem pay3_apply (y : S512x1.Idx) : (k0_pay3 (F := Ideal)) y = Ideal.ofBits .f32 0x00000000#32 := by
  unfold k0_pay3; rw [shapeCast_self]; rfl

/-- The sum-of-exps update at row r: the accumulator's entry plus the tile's Σ_k exp(x(r, k) / 4). -/
theorem pay4_apply (v3 : FVec Ideal S512x6400 .f32) (v13 : FVec Ideal S512x1 .f32) (r : Fin 512) :
    k0_pay4 (F := Ideal) v3 v13 (ix2 r (0 : Fin 1))
      = v13 (ix2 r (0 : Fin 1)) + ∑ k : Fin 6400, Ideal.exp (v3 (ix2 r k) * Ideal.ofBits .f32 0x3E800000#32) := by
  unfold k0_pay4
  dsimp only
  rw [shapeCast_self, addf_apply]
  refine congrArg (v13 (ix2 r (0 : Fin 1)) + ·) ?_
  refine (col_of_vec_apply _ _ r).trans ?_
  refine (laneSum_apply _ _ _ _ r).trans ?_
  rfl

/-- The label-logit update at row r: the accumulator's entry plus the tile's masked lane sum, the mask "column k is the
    row's label shifted by 6400 · (the column tile's number)". -/
theorem pay5_apply (i : grid0.Coords) (v3 : FVec Ideal S512x6400 .f32) (v4 : Vec Ideal S512x1 .i32) (v23 : FVec Ideal S512x1 .f32)
    (r : Fin 512) :
    k0_pay5 (F := Ideal) i v3 v4 v23 (ix2 r (0 : Fin 1))
      = v23 (ix2 r (0 : Fin 1)) + ∑ k : Fin 6400,
          Scalar.select (IntOp.cmpi .eq (BitVec.ofNat 32 k.val)
            (IntOp.subi (v4 (ix2 r (0 : Fin 1)) : BitVec 32) (IntOp.muli (BitVec.ofNat 32 (i 1).val) 6400#32)))
            (v3 (ix2 r k)) (Ideal.ofBits .f32 0x00000000#32) := by
  unfold k0_pay5
  dsimp only
  simp only [shapeCast_self]
  rw [addf_apply]
  refine congrArg (v23 (ix2 r (0 : Fin 1)) + ·) ?_
  refine (col_of_vec_apply _ _ r).trans ?_
  refine (laneSum_apply _ _ _ _ r).trans ?_
  refine Finset.sum_congr rfl fun k _ => ?_
  rw [select_apply]
  show Scalar.select (IntOp.cmpi .eq (broadcastTo S512x6400 _ _ (ix2 r k)) (broadcastTo S512x6400 _ _ (ix2 r k))) _ _ = _
  rw [broadcastTo_1b_ab_apply, broadcastTo_a1_ab_apply, iota_single_apply]
  rfl

/-- The closing arithmetic at an entry: zero minus the row's log ratio of the two accumulators' entries. -/
theorem pay1_apply (ly se : FVec Ideal S512x1 .f32) (y : S512x1.Idx) :
    k0_pay1 (F := Ideal) ly se y = Ideal.ofBits .f32 0x00000000#32 - Cert.MarginLoss.logRatio (se y) (ly y) := by
  unfold k0_pay1 Cert.MarginLoss.logRatio
  rfl

end Cert.KernelIdeal.Rows

end
-- ==== Proof.LibOneHotTake.lean ====
/-
  GENERAL LEMMAS (no program imported): a row entry taken at a label two ways, and the words that make the two agree.

  A Pallas kernel often cannot lower `take_along_axis` and takes `x[p, l]` instead as the row summed against the one-hot
  mask `[k = l]` of the lane counter; jnp's own `take_along_axis(x, l[:, None], axis=1)` prints as a wrap of negative
  labels, an in-range mask folded by `and`, a batched `stablehlo.gather` that clamps its start index, and a select
  against a fill word. This file reads each piece at an index:
    * `oneHot_sum`            — the masked sum over the C columns is the entry at the label, for a label below C;
    * `toNat_lt_of_signed_range`, `slt_zero_of_small`, `sge_zero_of_small`, `sle_of_small`, `clamp_of_small`
                                — a 32-bit word in [0, n) signed is below n unsigned; such a word is not negative, is at
                                  most any bound it is at most, and is its own value after the gather's signed clamp;
    * `foldl_andi_ones`, `reduce_andi_of_forall`
                                — a `stablehlo.reduce` by `and` from 1 over bits that are all 1 is 1 (the converse of
                                  the library's `Host.reduce_andi_eq_one`);
    * `rowTakeDims`, `gather_rowTake_apply`
                                — the gather of `take_along_axis` along axis 1 of an [N, C] operand (batching axis 0,
                                  collapsed and start-indexed axis 1, start indices [N, 1, 1]) reads, at row p, the
                                  operand at (p, start index of row p read signed and clamped into [0, C - 1]).
-/
import Idealize.ShloMosaic.PureOps.Reduce
import Idealize.ShloMosaic.Lib.ValueIdx
import Idealize.ShloMosaic.Lib.StableHlo.Predicate

noncomputable section

namespace Cert.LibOneHotTake

open Idealize.ShloMosaic Idealize.ShloMosaic.ValueIdx

/-! ## The one-hot masked sum -/

/-- Column k's word is the label exactly when k is the label's value (C columns, C below 2³²). -/
theorem col_word_eq_iff {C : Nat} (hC : C ≤ 2 ^ 32) (l : BitVec 32) (hl : l.toNat < C) (k : Fin C) :
    BitVec.ofNat 32 k.val = l ↔ k = ⟨l.toNat, hl⟩ := by
  constructor
  · intro h
    apply Fin.ext
    have := congrArg BitVec.toNat h
    rw [BitVec.toNat_ofNat, Nat.mod_eq_of_lt (by have := k.isLt; omega)] at this
    exact this
  · intro h
    subst h
    exact BitVec.eq_of_toNat_eq (by rw [BitVec.toNat_ofNat, Nat.mod_eq_of_lt (by omega)])

/-- THE ONE-HOT SUM. In any additive commutative monoid, a row summed against the mask "column k's word is the label",
    with `z = 0` in the masked-out places, is the row's entry at the label, for a label below the column count: every
    other column contributes zero. (On the extended reals `0 + a = a` for every a, so nothing is asked of the row.) -/
theorem oneHot_sum {M : Type} [AddCommMonoid M] {C : Nat} (hC : C ≤ 2 ^ 32) (x : Fin C → M) (z : M) (hz : z = 0)
    (l : BitVec 32) (hl : l.toNat < C) :
    ∑ k : Fin C, Scalar.select (IntOp.cmpi .eq (BitVec.ofNat 32 k.val) l) (x k) z = x ⟨l.toNat, hl⟩ := by
  rw [Finset.sum_eq_single (⟨l.toNat, hl⟩ : Fin C)]
  · have h1 : IntOp.cmpi .eq (BitVec.ofNat 32 (⟨l.toNat, hl⟩ : Fin C).val) l = 1#1 :=
      StableHlo.Predicate.cmpi_eq_iff.mpr ((col_word_eq_iff hC l hl ⟨l.toNat, hl⟩).mpr rfl)
    rw [h1, select_one]
  · intro k _ hk
    have h0 : IntOp.cmpi .eq (BitVec.ofNat 32 k.val) l = 0#1 :=
      eq_zero_of_ne_one fun h => hk ((col_word_eq_iff hC l hl k).mp (StableHlo.Predicate.cmpi_eq_iff.mp h))
    rw [h0, select_zero, hz]
  · intro h; exact absurd (Finset.mem_univ _) h

/-! ## Small non-negative words -/

/-- A word in [0, n) as a signed number is below n as an unsigned one. -/
theorem toNat_lt_of_signed_range (w : BitVec 32) (n : Nat) (hn : n < 2 ^ 31) (h0 : IntOp.cmpi .sge w 0#32 = 1#1)
    (h1 : IntOp.cmpi .slt w (BitVec.ofNat 32 n) = 1#1) : w.toNat < n := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  rw [e0] at h0
  rw [StableHlo.Predicate.toInt_ofNat_small n hn] at h1
  have hw := w.isLt
  have hi := BitVec.toInt_eq_toNat_cond w
  by_cases hc : 2 * w.toNat < 2 ^ 32
  · rw [if_pos hc] at hi; omega
  · rw [if_neg hc] at hi; omega

/-- A word below 2³¹ is not negative, -/
theorem slt_zero_of_small (w : BitVec 32) (h : w.toNat < 2 ^ 31) : IntOp.cmpi .slt w 0#32 = 0#1 :=
  eq_zero_of_ne_one fun e => by
    have := (StableHlo.Predicate.slt_iff_toNat h (by decide)).mp e
    simp at this
/-- is at least zero, -/
theorem sge_zero_of_small (w : BitVec 32) (h : w.toNat < 2 ^ 31) : IntOp.cmpi .sge w 0#32 = 1#1 :=
  (StableHlo.Predicate.sge_iff_toNat h (by decide)).mpr (by simp)
/-- is at most the word of any bound below 2³¹ that its value is at most, -/
theorem sle_of_small (w : BitVec 32) (n : Nat) (hn : n < 2 ^ 31) (h : w.toNat ≤ n) :
    IntOp.cmpi .sle w (BitVec.ofNat 32 n) = 1#1 :=
  (StableHlo.Predicate.sle_iff_toNat (by omega) (by rw [BitVec.toNat_ofNat, Nat.mod_eq_of_lt (by omega)]; exact hn)).mpr (by
    rw [BitVec.toNat_ofNat, Nat.mod_eq_of_lt (by omega)]; exact h)
/-- and, read signed and clamped into [0, n], is its own value. -/
theorem clamp_of_small (w : BitVec 32) (n : Nat) (hn : n < 2 ^ 31) (h : w.toNat ≤ n) : min w.toInt.toNat n = w.toNat := by
  rw [StableHlo.Predicate.toInt_eq_toNat_of_lt (by omega), Int.toNat_natCast]
  omega

/-! ## An all-reduction by `and` over ones -/

/-- A left fold by `and` from 1 over bits that are all 1 is 1. -/
theorem foldl_andi_ones {ι : Type} (f : ι → BitVec 1) : ∀ (L : List ι), (∀ n ∈ L, f n = 1#1) →
    L.foldl (fun r n => IntOp.andi r (f n)) 1#1 = 1#1
  | [], _ => rfl
  | a :: L, h => by
    rw [List.foldl_cons, h a List.mem_cons_self]
    exact foldl_andi_ones f L fun n hn => h n (List.mem_cons_of_mem _ hn)

/-- A `stablehlo.reduce` by `and`, from an initial value whose element is 1, of an operand that is 1 everywhere is 1 at
    every result index, whatever axes it reduces. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones _ _ fun n _ => hx n

/-! ## `take_along_axis` along axis 1: the batched gather -/

/-- The dimension numbers jnp's `take_along_axis(x, idx, axis=1)` gives `stablehlo.gather` for an operand [N, C], start
    indices [N, 1, 1] and a result [N, 1]: no offset axes, axis 1 collapsed and start-indexed, axis 0 batching on both
    sides, the index vector on axis 2, slices of one element. Their conditions are decided on a program's literal shapes;
    a printed record with these fields is this one (its fields agree and `wf` is a proof). -/
abbrev rowTakeDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT ROW p: the operand's row p at the start index `idx[p, 0, 0]`, read signed and clamped into
    [0, C − 1] as StableHLO's gather clamps every start index. -/
theorem gather_rowTake_apply {α : Type} {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (p : Fin N) :
    Host.gather (rowTakeDims N C wf) x idx (ix2 p (0 : Fin 1))
      = x (ix2 p ⟨min (idx (ix3 p (0 : Fin 1) (0 : Fin 1))).toInt.toNat (C - 1), by omega⟩) := by
  unfold Host.gather
  refine congrArg x (funext fun a => Fin.ext ?_)
  match a with
  | ⟨0, _⟩ =>
    show (rowTakeDims N C wf).start (ix2 p (0 : Fin 1)) idx 0 + (rowTakeDims N C wf).batchCoord (ix2 p (0 : Fin 1)) 0
      + (rowTakeDims N C wf).offCoord (ix2 p (0 : Fin 1)) 0 = p.val
    rw [GatherDims.start_batching (rowTakeDims N C wf) _ _ 0 (List.mem_singleton.mpr rfl),
      GatherDims.offCoord_eq_zero (rowTakeDims N C wf) _ 0
        (fun h => ((GatherDims.mem_sKept _ _).mp h).2 (List.mem_singleton.mpr rfl)), Nat.zero_add, Nat.add_zero]
    rfl
  | ⟨1, _⟩ =>
    show (rowTakeDims N C wf).start (ix2 p (0 : Fin 1)) idx 1 + (rowTakeDims N C wf).batchCoord (ix2 p (0 : Fin 1)) 1
      + (rowTakeDims N C wf).offCoord (ix2 p (0 : Fin 1)) 1 = min (idx (ix3 p (0 : Fin 1) (0 : Fin 1))).toInt.toNat (C - 1)
    rw [GatherDims.batchCoord_eq_zero (rowTakeDims N C wf) _ 1 (by show (1 : Fin 2) ∉ ([0] : List (Fin 2)); decide),
      GatherDims.offCoord_eq_zero (rowTakeDims N C wf) _ 1
        (fun h => ((GatherDims.mem_sKept _ _).mp h).1 (List.mem_singleton.mpr rfl))]
    simp only [Nat.add_zero]
    unfold GatherDims.start
    rw [dif_pos (show (1 : Fin 2) ∈ (rowTakeDims N C wf).startIndexMap from List.mem_singleton.mpr rfl)]
    have hsi : (rowTakeDims N C wf).siIdx (ix2 p (0 : Fin 1))
        ⟨List.idxOf (1 : Fin 2) (rowTakeDims N C wf).startIndexMap, List.idxOf_lt_length_iff.2 (List.mem_singleton.mpr rfl)⟩
        = ix3 p (0 : Fin 1) (0 : Fin 1) := funext fun b => Fin.ext (by
      match b with
      | ⟨0, _⟩ => rfl
      | ⟨1, _⟩ => rfl
      | ⟨2, _⟩ => rfl)
    rw [hsi]
    rfl

end Cert.LibOneHotTake

end
-- ==== Proof.RowSums.lean ====
/-
  A row of 32000 columns read five tiles of 6400 columns at a time.

  Both accumulators of the kernel grow by one tile's contribution per grid point, so what they hold after j + 1 tiles is a
  PREFIX sum over the first 6400·(j + 1) columns of the row: of exp(x / 4) for the sum of exps, and of the logits masked
  by "this column is the label" for the gathered label logit. The prefix over all 32000 columns is the row's sum of exps,
  respectively (every other column contributing zero) the entry at the label. The kernel tests the mask in the tile's
  own frame, column k' against label − 6400·j; that is the test of column 6400·j + k' against the label.
  Entries are read at natural-number coordinates (zero outside the array) so that a prefix is a sum over a range.
-/
import Idealize.ShloMosaic.PureOps.Ideal.Laws
import Idealize.ShloMosaic.Lib.ValueIdx
import Idealize.ShloMosaic.Lib.StableHlo.Predicate
import proofs.«420632_j83451214561473_3_alg».proof.Proof.LibOneHotTake
import proofs.«420632_j83451214561473_3_alg».proof.Proof.LossAlgebra

noncomputable section

namespace Cert.MarginLoss

open Idealize.ShloMosaic Idealize.ShloMosaic.ValueIdx

/-- The logits' shape and the labels'. -/
abbrev SX : Shape := ⟨2, ![8192, 32000]⟩
abbrev SL : Shape := ⟨1, ![8192]⟩

/-- Entry (p, k) of the logits at natural-number coordinates, zero outside the array. -/
def at2 (X : SX.Idx → EReal) (p k : ℕ) : EReal :=
  if h : p < 8192 ∧ k < 32000 then X (ix2 ⟨p, h.1⟩ ⟨k, h.2⟩) else 0

theorem at2_of_lt (X : SX.Idx → EReal) (p : Fin 8192) (k : Fin 32000) : at2 X p.val k.val = X (ix2 p k) := by
  unfold at2; rw [dif_pos ⟨p.isLt, k.isLt⟩]

/-- Row p's label word at a natural-number coordinate. -/
def labAt (L : SL.Idx → BitVec 32) (p : ℕ) : BitVec 32 := if h : p < 8192 then L (ix1 ⟨p, h⟩) else 0#32

theorem labAt_of_lt (L : SL.Idx → BitVec 32) (p : Fin 8192) : labAt L p.val = L (ix1 p) := by
  unfold labAt; rw [dif_pos p.isLt]

/-- The sum of exp(x / 4) over the first n columns of row p. -/
def expPrefix (X : SX.Idx → EReal) (p n : ℕ) : EReal :=
  ∑ k ∈ Finset.range n, Ideal.exp (at2 X p k * Ideal.ofBits .f32 0x3E800000#32)

/-- The logits of row p masked by "column k is the word l", summed over the first n columns. -/
def hotPrefix (X : SX.Idx → EReal) (l : BitVec 32) (p n : ℕ) : EReal :=
  ∑ k ∈ Finset.range n, Scalar.select (IntOp.cmpi .eq (BitVec.ofNat 32 k) l) (at2 X p k) (Ideal.ofBits .f32 0x00000000#32)

/-- A prefix over a + n columns is the prefix over a columns plus the next n columns' contributions. -/
theorem expPrefix_add (X : SX.Idx → EReal) (p a n : ℕ) :
    expPrefix X p (a + n) = expPrefix X p a + ∑ k : Fin n, Ideal.exp (at2 X p (a + k.val) * Ideal.ofBits .f32 0x3E800000#32) := by
  unfold expPrefix
  rw [Finset.sum_range_add]
  exact congrArg (_ + ·) (Finset.sum_range fun x => Ideal.exp (at2 X p (a + x) * Ideal.ofBits .f32 0x3E800000#32))

theorem hotPrefix_add (X : SX.Idx → EReal) (l : BitVec 32) (p a n : ℕ) :
    hotPrefix X l p (a + n) = hotPrefix X l p a
      + ∑ k : Fin n, Scalar.select (IntOp.cmpi .eq (BitVec.ofNat 32 (a + k.val)) l) (at2 X p (a + k.val)) (Ideal.ofBits .f32 0x00000000#32) := by
  unfold hotPrefix
  rw [Finset.sum_range_add]
  exact congrArg (_ + ·) (Finset.sum_range fun x =>
    Scalar.select (IntOp.cmpi .eq (BitVec.ofNat 32 (a + x)) l) (at2 X p (a + x)) (Ideal.ofBits .f32 0x00000000#32))

theorem expPrefix_zero (X : SX.Idx → EReal) (p : ℕ) : expPrefix X p 0 = 0 := by
  unfold expPrefix; rw [Finset.range_zero, Finset.sum_empty]

theorem hotPrefix_zero (X : SX.Idx → EReal) (l : BitVec 32) (p : ℕ) : hotPrefix X l p 0 = 0 := by
  unfold hotPrefix; rw [Finset.range_zero, Finset.sum_empty]

/-- The prefix over the whole row is the row's sum of exps. -/
theorem expPrefix_full (X : SX.Idx → EReal) (p : Fin 8192) :
    expPrefix X p.val 32000 = sumExp (fun k => X (ix2 p k)) := by
  unfold expPrefix sumExp
  rw [Finset.sum_range]
  exact Finset.sum_congr rfl fun k _ => by rw [at2_of_lt]

/-- The masked prefix over the whole row is the entry at the label, for a label below 32000. -/
theorem hotPrefix_full (X : SX.Idx → EReal) (l : BitVec 32) (hl : l.toNat < 32000) (p : Fin 8192) :
    hotPrefix X l p.val 32000 = X (ix2 p ⟨l.toNat, hl⟩) := by
  unfold hotPrefix
  rw [Finset.sum_range]
  rw [← Cert.LibOneHotTake.oneHot_sum (C := 32000) (by norm_num) (fun k : Fin 32000 => X (ix2 p k))
    (Ideal.ofBits .f32 0x00000000#32) Ideal.ofBits_zero_f32 l hl]
  exact Finset.sum_congr rfl fun k _ => by rw [at2_of_lt]

/-! ## The mask in the tile's own frame -/

/-- Two equality tests of words agree when the equalities are equivalent. -/
theorem cmpi_eq_congr {w : ℕ} {a b a' b' : BitVec w} (h : a = b ↔ a' = b') :
    IntOp.cmpi .eq a b = IntOp.cmpi .eq a' b' := by
  by_cases e : a = b
  · rw [StableHlo.Predicate.cmpi_eq_iff.mpr e, StableHlo.Predicate.cmpi_eq_iff.mpr (h.mp e)]
  · rw [eq_zero_of_ne_one fun h1 => e (StableHlo.Predicate.cmpi_eq_iff.mp h1),
      eq_zero_of_ne_one fun h1 => e (h.mpr (StableHlo.Predicate.cmpi_eq_iff.mp h1))]

/-- Column k of tile j is the label shifted into the tile's frame exactly when column 6400·j + k is the label. -/
theorem mask_shift (k j : ℕ) (l : BitVec 32) :
    IntOp.cmpi .eq (BitVec.ofNat 32 k) (IntOp.subi l (IntOp.muli (BitVec.ofNat 32 j) 6400#32))
      = IntOp.cmpi .eq (BitVec.ofNat 32 (6400 * j + k)) l := by
  apply cmpi_eq_congr
  show BitVec.ofNat 32 k = l - BitVec.ofNat 32 j * 6400#32 ↔ _
  rw [BitVec.eq_sub_iff_add_eq]
  have e : BitVec.ofNat 32 k + BitVec.ofNat 32 j * 6400#32 = BitVec.ofNat 32 (6400 * j + k) := by
    apply BitVec.eq_of_toNat_eq
    simp only [BitVec.toNat_add, BitVec.toNat_mul, BitVec.toNat_ofNat]
    omega
  rw [e]

end Cert.MarginLoss

end
-- ==== Proof.KernelInvariant.lean ====
/-
  What the two accumulators hold after every grid point, and what the output block holds at a row tile's last point.

  Point n of the 80-point grid is column tile j = n mod 5 of row tile n div 5 (the column axis is innermost). Row r of
  the point's blocks is row p = 512·(n div 5) + r of the arrays, and column k of the logits block is column 6400·j + k.
  After point n the sum-of-exps accumulator holds, at row r, zero plus the prefix sum of exp(x / 4) over the first
  6400·(j + 1) columns of row p, and the label-logit accumulator zero plus the masked prefix over the same columns:
  by induction on the point, the first tile starting from the stored zeros and every later tile adding its own 6400
  columns to what the tile before left. At j = 4 the prefixes are over the whole row, and the output block is the
  closing arithmetic of the two.
-/
import proofs.«420632_j83451214561473_3_alg».proof.Proof.Gen.KernelIdeal.Frame
import proofs.«420632_j83451214561473_3_alg».proof.Proof.KernelPieces
import proofs.«420632_j83451214561473_3_alg».proof.Proof.KernelRows
import proofs.«420632_j83451214561473_3_alg».proof.Proof.RowSums
import Idealize.ShloMosaic.Lib.Pipeline.Value
import Idealize.ShloMosaic.Lib.StableHlo.Run

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.MarginLoss

variable (m : (ℓ : Loc nD τ sig) → Buf (Elt Ideal) ℓ) (ρ : Dev nD → PrngReg)

/-- The logits and the labels as launched. -/
abbrev logits (c : Dev nD) : SX.Idx → EReal := m ((c : Thread nD τ).loc main_arg0)
abbrev labels (c : Dev nD) : SL.Idx → BitVec 32 := m ((c : Thread nD τ).loc main_arg1)

/-- The logits block and the label block the pipeline stages at a point. -/
abbrev xblk (c : Dev nD) (t : Fin cfg0.N) : FVec Ideal S512x6400 .f32 := iblk m c 0 t
abbrev lblk (c : Dev nD) (t : Fin cfg0.N) : Vec Ideal S512x1 .i32 := iblk m c 1 t

/-- The printed index maps, decided over the grid: point t is row tile t div 5 and column tile t mod 5. -/
theorem idx_facts : ∀ t : Fin cfg0.N, win0_0.index t (0 : Fin 2) = t.val / 5 ∧ win0_0.index t (1 : Fin 2) = t.val % 5
    ∧ win0_1.index t (0 : Fin 2) = t.val / 5 ∧ win0_1.index t (1 : Fin 2) = 0
    ∧ win0_2.index t (0 : Fin 2) = t.val / 5 ∧ win0_2.index t (1 : Fin 2) = 0
    ∧ ((grid0.coords t) 1).val = t.val % 5 :=
  (by decide +kernel : ∀ t : Fin grid0.N, _)

/-! ## The blocks, read off the arrays -/

theorem xblk_apply (c : Dev nD) (n : ℕ) (h : n < cfg0.N) (r : Fin 512) (k : Fin 6400) :
    xblk m c ⟨n, h⟩ (ix2 r k) = at2 (logits m c) (512 * (n / 5) + r.val) (6400 * (n % 5) + k.val) := by
  obtain ⟨e0, e1, -⟩ := idx_facts ⟨n, h⟩
  have hN : n < 80 := lt_of_lt_of_eq h (show cfg0.N = 80 from N_0)
  have hp : 512 * (n / 5) + r.val < 8192 := by have := r.isLt; omega
  have hk : 6400 * (n % 5) + k.val < 32000 := by have := k.isLt; omega
  rw [show at2 (logits m c) (512 * (n / 5) + r.val) (6400 * (n % 5) + k.val) = logits m c (ix2 ⟨_, hp⟩ ⟨_, hk⟩) from
    at2_of_lt (logits m c) ⟨_, hp⟩ ⟨_, hk⟩]
  show iblk m c 0 ⟨n, h⟩ (ix2 r k) = _
  unfold iblk
  rw [View.read_apply]
  show V m c main_arg0 _ = _
  rw [V_main_arg0]
  congr 1
  funext a
  apply Fin.ext
  match a with
  | ⟨0, _⟩ => show win0_0.index ⟨n, h⟩ (0 : Fin 2) * 512 + 1 * r.val = 512 * (n / 5) + r.val; rw [e0]; show n / 5 * 512 + 1 * r.val = _; omega
  | ⟨1, _⟩ => show win0_0.index ⟨n, h⟩ (1 : Fin 2) * 6400 + 1 * k.val = 6400 * (n % 5) + k.val; rw [e1]; show n % 5 * 6400 + 1 * k.val = _; omega

/-- The label column the region finds is the launched labels viewed as a column (the one host operation before it). -/
theorem V_main_v0_apply (c : Dev nD) (p : Fin 8192) :
    (V m c main_v0 : S8192x1.Idx → BitVec 32) (ix2 p (0 : Fin 1)) = labels m c (ix1 p) := by
  have e : (V m c main_v0 : S8192x1.Idx → BitVec 32)
      = shapeCast S8192x1 (m ((c : Thread nD τ).loc main_arg1)) Facts₀.shapeCasts_S8192_S8192x1 := by
    show StableHlo.after hostOps0 (fun b => m (c, b)) (Proc.devRef .tc main_v0) = _
    after_results
    rfl
  rw [e]
  exact shapeCast_apply _ _ (ix2 p (0 : Fin 1)) (ix1 p) (by
    rw [Shape.rowMajor_val_one, Shape.rowMajor_val_two]; show p.val = p.val * 1 + 0; omega)

theorem lblk_apply (c : Dev nD) (n : ℕ) (h : n < cfg0.N) (r : Fin 512) :
    (lblk m c ⟨n, h⟩ (ix2 r (0 : Fin 1)) : BitVec 32) = labAt (labels m c) (512 * (n / 5) + r.val) := by
  obtain ⟨-, -, e2, e3, -⟩ := idx_facts ⟨n, h⟩
  have hN : n < 80 := lt_of_lt_of_eq h (show cfg0.N = 80 from N_0)
  have hp : 512 * (n / 5) + r.val < 8192 := by have := r.isLt; omega
  rw [show labAt (labels m c) (512 * (n / 5) + r.val) = labels m c (ix1 ⟨_, hp⟩) from labAt_of_lt (labels m c) ⟨_, hp⟩,
    ← V_main_v0_apply m c ⟨_, hp⟩]
  show iblk m c 1 ⟨n, h⟩ (ix2 r (0 : Fin 1)) = _
  unfold iblk
  rw [View.read_apply]
  show V m c main_v0 _ = V m c main_v0 _
  congr 1
  funext a
  apply Fin.ext
  match a with
  | ⟨0, _⟩ => show win0_1.index ⟨n, h⟩ (0 : Fin 2) * 512 + 1 * r.val = 512 * (n / 5) + r.val; rw [e2]; show n / 5 * 512 + 1 * r.val = _; omega
  | ⟨1, _⟩ => show win0_1.index ⟨n, h⟩ (1 : Fin 2) * 1 + 1 * 0 = 0; rw [e3]

/-! ## One point's updates at a row, over the arrays -/

/-- The sum-of-exps update at point n, row r: what the accumulator held plus the exps of columns 6400·j … 6400·j + 6399 of row p. -/
theorem se_step (c : Dev nD) (n : ℕ) (h : n < cfg0.N) (prev : FVec Ideal S512x1 .f32) (r : Fin 512) :
    k0_pay4 (F := Ideal) (xblk m c ⟨n, h⟩) prev (ix2 r (0 : Fin 1))
      = prev (ix2 r (0 : Fin 1)) + ∑ k : Fin 6400,
          Ideal.exp (at2 (logits m c) (512 * (n / 5) + r.val) (6400 * (n % 5) + k.val) * Ideal.ofBits .f32 0x3E800000#32) := by
  refine (Rows.pay4_apply (xblk m c ⟨n, h⟩) prev r).trans ?_
  refine congrArg (prev (ix2 r (0 : Fin 1)) + ·) (Finset.sum_congr rfl fun k _ => ?_)
  rw [xblk_apply]

/-- The label-logit update at point n, row r: what the accumulator held plus the same columns of row p masked by "this column is the row's label". -/
theorem ly_step (c : Dev nD) (n : ℕ) (h : n < cfg0.N) (prev : FVec Ideal S512x1 .f32) (r : Fin 512) :
    k0_pay5 (F := Ideal) (grid0.coords ⟨n, h⟩) (xblk m c ⟨n, h⟩) (lblk m c ⟨n, h⟩) prev (ix2 r (0 : Fin 1))
      = prev (ix2 r (0 : Fin 1)) + ∑ k : Fin 6400,
          Scalar.select (IntOp.cmpi .eq (BitVec.ofNat 32 (6400 * (n % 5) + k.val)) (labAt (labels m c) (512 * (n / 5) + r.val)))
            (at2 (logits m c) (512 * (n / 5) + r.val) (6400 * (n % 5) + k.val)) (Ideal.ofBits .f32 0x00000000#32) := by
  obtain ⟨-, -, -, -, -, -, eg⟩ := idx_facts ⟨n, h⟩
  refine (Rows.pay5_apply (grid0.coords ⟨n, h⟩) (xblk m c ⟨n, h⟩) (lblk m c ⟨n, h⟩) prev r).trans ?_
  refine congrArg (prev (ix2 r (0 : Fin 1)) + ·) (Finset.sum_congr rfl fun k _ => ?_)
  rw [xblk_apply, lblk_apply, eg, mask_shift]

/-! ## The accumulators after every point -/

/-- After point n, at row r: zero plus the masked prefix, and zero plus the prefix of exps, over the first 6400·(n mod 5 + 1) columns of row 512·(n div 5) + r. -/
theorem acc_eq (c : Dev nD) (n : ℕ) : ∀ (h : n < cfg0.N) (r : Fin 512),
    (outsAt0 m c n h).2.1 (ix2 r (0 : Fin 1))
        = Ideal.ofBits .f32 0x00000000#32 + hotPrefix (logits m c) (labAt (labels m c) (512 * (n / 5) + r.val)) (512 * (n / 5) + r.val) (6400 * (n % 5 + 1))
    ∧ (outsAt0 m c n h).2.2 (ix2 r (0 : Fin 1))
        = Ideal.ofBits .f32 0x00000000#32 + expPrefix (logits m c) (512 * (n / 5) + r.val) (6400 * (n % 5 + 1)) := by
  induction n using Nat.strong_induction_on with
  | _ n ih =>
    intro h r
    have hN : n < 80 := lt_of_lt_of_eq h (show cfg0.N = 80 from N_0)
    have hsplit : 6400 * (n % 5 + 1) = 6400 * (n % 5) + 6400 := by omega
    rw [hsplit, hotPrefix_add, expPrefix_add]
    by_cases h0 : n % 5 = 0
    · have h1 : ¬n % 5 = 4 := by omega
      rw [outsAt0_A m c ⟨n, h⟩ h0 h1]
      dsimp only
      constructor
      · refine (congrFun (Pieces.ly_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) _ _ (xblk m c ⟨n, h⟩) (lblk m c ⟨n, h⟩)) (ix2 r (0 : Fin 1))).trans ?_
        refine (ly_step m c n h (k0_pay2 (F := Ideal)) r).trans ?_
        rw [Rows.pay2_apply, h0, Nat.mul_zero, hotPrefix_zero, zero_add]
      · refine (congrFun (Pieces.se_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) _ _ (xblk m c ⟨n, h⟩) (lblk m c ⟨n, h⟩)) (ix2 r (0 : Fin 1))).trans ?_
        refine (se_step m c n h (k0_pay3 (F := Ideal)) r).trans ?_
        rw [Rows.pay3_apply, h0, Nat.mul_zero, expPrefix_zero, zero_add]
    · have hpos : n - 1 < n := by omega
      have e1 : (n - 1) / 5 = n / 5 := by omega
      have e2 : (n - 1) % 5 + 1 = n % 5 := by omega
      have hprev := ih (n - 1) hpos (Nat.lt_of_le_of_lt (Nat.sub_le _ _) h) r
      rw [e1, e2] at hprev
      by_cases h1 : n % 5 = 4
      · rw [outsAt0_C m c ⟨n, h⟩ h0 h1]
        dsimp only
        constructor
        · refine (congrFun (Pieces.ly_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) _ _ (xblk m c ⟨n, h⟩) (lblk m c ⟨n, h⟩) _ _) (ix2 r (0 : Fin 1))).trans ?_
          refine (ly_step m c n h _ r).trans ?_
          rw [hprev.1, add_assoc]
        · refine (congrFun (Pieces.se_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) _ _ (xblk m c ⟨n, h⟩) (lblk m c ⟨n, h⟩) _ _) (ix2 r (0 : Fin 1))).trans ?_
          refine (se_step m c n h _ r).trans ?_
          rw [hprev.2, add_assoc]
      · rw [outsAt0_B m c ⟨n, h⟩ h0 h1]
        dsimp only
        constructor
        · refine (congrFun (Pieces.ly_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) _ _ (xblk m c ⟨n, h⟩) (lblk m c ⟨n, h⟩) _ _) (ix2 r (0 : Fin 1))).trans ?_
          refine (ly_step m c n h _ r).trans ?_
          rw [hprev.1, add_assoc]
        · refine (congrFun (Pieces.se_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) _ _ (xblk m c ⟨n, h⟩) (lblk m c ⟨n, h⟩) _ _) (ix2 r (0 : Fin 1))).trans ?_
          refine (se_step m c n h _ r).trans ?_
          rw [hprev.2, add_assoc]

/-! ## The output block at a row tile's last point -/

/-- Row p's loss term as the kernel computes it, at a natural-number row: zero minus the log ratio of the whole row's
    two sums (each "zero plus", as the accumulators hold them). -/
def lossAt (c : Dev nD) (p : ℕ) : EReal :=
  Ideal.ofBits .f32 0x00000000#32 - logRatio (Ideal.ofBits .f32 0x00000000#32 + expPrefix (logits m c) p 32000)
    (Ideal.ofBits .f32 0x00000000#32 + hotPrefix (logits m c) (labAt (labels m c) p) p 32000)

/-- At the last column tile of a row tile the output block holds, at row r, the loss term of row 512·(n div 5) + r. -/
theorem out_eq (c : Dev nD) (n : ℕ) (h : n < cfg0.N) (h4 : n % 5 = 4) (r : Fin 512) :
    (outsAt0 m c n h).1 (ix2 r (0 : Fin 1)) = lossAt m c (512 * (n / 5) + r.val) := by
  have h0 : ¬n % 5 = 0 := by omega
  obtain ⟨a1, a2⟩ := acc_eq m c n h r
  rw [show 6400 * (n % 5 + 1) = 32000 by omega] at a1 a2
  unfold lossAt
  rw [← a1, ← a2]
  rw [outsAt0_C m c ⟨n, h⟩ h0 h4]
  dsimp only
  refine (congrFun (Pieces.out_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) _ _ (xblk m c ⟨n, h⟩) (lblk m c ⟨n, h⟩) _ _) (ix2 r (0 : Fin 1))).trans ?_
  refine (Rows.pay1_apply _ _ (ix2 r (0 : Fin 1))).trans ?_
  rw [Pieces.ly_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) _ _ (xblk m c ⟨n, h⟩) (lblk m c ⟨n, h⟩) _ _,
    Pieces.se_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) _ _ (xblk m c ⟨n, h⟩) (lblk m c ⟨n, h⟩) _ _]

end Cert.KernelIdeal.Value

end
-- ==== Proof.KernelValue.lean ====
/-
  From the output blocks to the kernel's result.

  The output column [8192, 1] is written back once per row tile, at the row tile's last column tile: block (i, 0) of 512
  rows, holding the loss terms of rows 512·i … 512·i + 511. The sixteen blocks tile the column, so after the region
  the column holds every row's loss term. The two host operations after the region sum the column from zero and divide by
  8192: that scalar is the kernel's result.
-/
import proofs.«420632_j83451214561473_3_alg».proof.Proof.KernelInvariant

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.MarginLoss

variable (m : (ℓ : Loc nD τ sig) → Buf (Elt Ideal) ℓ) (ρ : Dev nD → PrngReg)

/-- The column of loss terms, one per row. -/
def lossCol (c : Dev nD) : S8192x1.Idx → EReal := fun y => lossAt m c (y 0).val

/-- The output block at a row tile's last point, at any of its entries. -/
theorem out_eq' (c : Dev nD) (n : ℕ) (h : n < cfg0.N) (h4 : n % 5 = 4) (y : S512x1.Idx) :
    (outsAt0 m c n h).1 y = lossAt m c (512 * (n / 5) + (y 0).val) := by
  obtain ⟨r, q, rfl⟩ : ∃ (r : Fin 512) (q : Fin 1), y = ix2 r q := ⟨y 0, y 1, eq_ix2 y⟩
  obtain rfl : q = 0 := Subsingleton.elim _ _
  exact out_eq m c n h h4 r

/-- An index of the column is in point t's block iff each coordinate is in the block's range on its axis. -/
theorem mem_blk (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1).slice (win0_2.rect t)).set ↔ _
  rw [View.set_slice_whole, Rect.mem_set_unit]
  exact Iff.rfl

/-- What a flushing point writes back is its block of the column of loss terms. -/
theorem flushed_eq (c : Dev nD) (t : Fin cfg0.N) (hf : (cfg0.win 2).flush t = true) :
    (dats m 0 c).flushed 2 t = ((cfg0.win 2).blk t).view.read (Elt Ideal) (lossCol m c) := by
  have h4 : t.val % 5 = 4 := (flush0_2 t).mp hf
  obtain ⟨-, -, -, -, e4, -, -⟩ := idx_facts t
  show (cfg0.win 2).cut (grid0.coords t) ((dats m 0 c).after 2 t) = _
  rw [after0_2]
  funext j
  show (outsAt0 m c t.val t.isLt).1 j = lossAt m c ((((cfg0.win 2).blk t).view.emb j) 0).val
  refine (out_eq' m c t.val t.isLt h4 j).trans ?_
  congr 1
  show 512 * (t.val / 5) + (j 0).val = win0_2.index t (0 : Fin 2) * 512 + 1 * (j 0).val
  rw [e4]; omega

/-- Every row of the column is in the block of its row tile's last point. -/
theorem covered (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 80 := N_0
  have ht : 5 * ((i 0).val / 512) + 4 < cfg0.N := by rw [hN]; omega
  obtain ⟨-, -, -, -, e4, e5, -⟩ := idx_facts ⟨_, ht⟩
  refine ⟨⟨_, ht⟩, (flush0_2 _).mpr (by show (5 * ((i 0).val / 512) + 4) % 5 = 4; omega), ?_⟩
  rw [mem_blk]
  intro a
  match a with
  | ⟨0, _⟩ =>
    show win0_2.index ⟨_, ht⟩ (0 : Fin 2) * 512 ≤ (i 0).val ∧ (i 0).val < win0_2.index ⟨_, ht⟩ (0 : Fin 2) * 512 + 512
    rw [e4]
    show (5 * ((i 0).val / 512) + 4) / 5 * 512 ≤ (i 0).val ∧ (i 0).val < (5 * ((i 0).val / 512) + 4) / 5 * 512 + 512
    omega
  | ⟨1, _⟩ =>
    show win0_2.index ⟨_, ht⟩ (1 : Fin 2) * 1 ≤ (i 1).val ∧ (i 1).val < win0_2.index ⟨_, ht⟩ (1 : Fin 2) * 1 + 1
    rw [e5]; omega

/-- After the region the output column holds every row's loss term. -/
theorem final (c : Dev nD) : (dats m 0 c).arrAt 2 cfg0.N = lossCol m c :=
  (dats m 0 c).arrAt_eq_of_cover 2 (lossCol m c) (flushed_eq m c) covered

/-- The kernel's result: the column summed from zero, over 8192. -/
def total (c : Dev nD) : S_.Idx → EReal :=
  Host.divf (F := Ideal)
    (Host.reduceAdd (F := Ideal) (lossCol m c) (constant (F := Ideal) S_ .f32 0x00000000#32) Facts₀.reducesTo_S8192x1_S_d0_1 Facts₀.h_S_)
    (constant (F := Ideal) S_ .f32 0x46000000#32)

/-- The host operations after the region compute it from the column the region leaves. -/
theorem tail_eq (c : Dev nD) : Pipeline.afterTail₀ cfgs (dats m) 0 (V0 m) [hostOps1] c main_v3 = total m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1)
      = lossCol m c :=
    (Pipeline.withArrays_arr spec0 launch0.win.arr_inj c _ _ 2).trans (final m c)
  rw [e]
  rfl

/-- The kernel's run, read: the result at the column's sum over 8192, the arguments unchanged. -/
theorem run : θ_run defs (onTc (τ := τ) (main (F := Ideal))) ⟨m, fun _ => 0, ρ⟩ fun r => ∀ c : Dev nD,
      r.2.mem ((c.tc : Thread nD τ).loc main_v3) = total m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

/-- The result at its one index: zero plus the sum of the 8192 loss terms, over the word of 8192. -/
theorem total_apply (c : Dev nD) (i : S_.Idx) :
    total m c i = Ideal.div (Ideal.ofBits .f32 0x00000000#32 + ∑ p : Fin 8192, lossAt m c p.val) (Ideal.ofBits .f32 0x46000000#32) := by
  unfold total
  show Ideal.div (Host.reduceAdd (F := Ideal) (lossCol m c) (constant (F := Ideal) S_ .f32 0x00000000#32)
    Facts₀.reducesTo_S8192x1_S_d0_1 Facts₀.h_S_ i) (Ideal.ofBits .f32 0x46000000#32) = _
  refine congrArg (fun z => Ideal.div z (Ideal.ofBits .f32 0x46000000#32)) ?_
  refine (Ideal.hostReduceAdd_total Facts₀.reducesTo_S8192x1_S_d0_1 (fun b => b.elim0) (lossCol m c) _ i).trans ?_
  refine congrArg (Ideal.ofBits .f32 0x00000000#32 + ·) ?_
  rw [sum_idx2]
  refine Finset.sum_congr rfl fun p _ => ?_
  rw [Fin.sum_univ_one]
  rfl

end Cert.KernelIdeal.Value

end
-- ==== Proof.RefValue.lean ====
/-
  The reference's result, read one operation at a time.

  For a label word l below 32000 at row p: jnp's take_along_axis wraps negative labels (l is not negative, so the wrap
  keeps it), checks 0 ≤ l ≤ 31999 (true), gathers x(p, clamp l) = x(p, l) and selects it against the fill word (the check
  being true, the gathered entry). The row's sum of exps is zero plus Σ_k exp(x(p, k) / 4). The row's term is then the log
  ratio of the two, the loss zero plus the sum of the 8192 terms, over the word of 8192, negated.
-/
import proofs.«420632_j83451214561473_3_alg».proof.Proof.RefRead
import proofs.«420632_j83451214561473_3_alg».proof.Proof.RowSums
import proofs.«420632_j83451214561473_3_alg».proof.Proof.LibOneHotTake

noncomputable section

namespace Cert.ReferenceIdeal.RefValue

open Idealize.ShloMosaic Idealize.ShloMosaic.ValueIdx
open Cert.ReferenceIdeal Cert.ReferenceIdeal.ReadP Cert.MarginLoss

variable (X : (⟨S8192x32000, .f32⟩ : BufTy).Contents (Elt Ideal)) (L : (⟨S8192, .i32⟩ : BufTy).Contents (Elt Ideal))

/-- The label the gather is started at, after the wrap of negative labels: the row's own label, for a label below 32000. -/
theorem wrapped_apply (hL : ∀ p : Fin 8192, (L (ix1 p)).toNat < 32000) (i : S8192x1x1.Idx) :
    val_main_call0_v5 (F := Ideal) L i = L (ix1 (⟨(i 0).val, (i 0).isLt⟩ : Fin 8192)) := by
  have hidx : idx_main_v0 (idx_main_call0_v5 i) = ix1 (⟨(i 0).val, (i 0).isLt⟩ : Fin 8192) := by
    funext a
    match a with
    | ⟨0, _⟩ =>
      apply Fin.ext
      have h1 : (i 1).val < 1 := (i 1).isLt
      have h2 : (i 2).val < 1 := (i 2).isLt
      show (((i 0).val * 1 + (i 1).val) * 1 + (i 2).val) / 1 = (i 0).val
      omega
  rw [val_main_call0_v5_apply, val_main_call0_v4_apply, val_main_call0_v1_apply, val_main_v0_apply, val_main_call0_v0_apply,
    val_main_call0_c_apply, hidx, Cert.LibOneHotTake.slt_zero_of_small _ (Nat.lt_of_lt_of_le (hL ⟨(i 0).val, (i 0).isLt⟩) (by norm_num)), select_zero]

/-- The in-range check is true at every row. -/
theorem inRange_apply (hL : ∀ p : Fin 8192, (L (ix1 p)).toNat < 32000) (j : S8192x1.Idx) :
    val_main_call0_v12 (F := Ideal) L j = 1#1 := by
  unfold val_main_call0_v12
  refine Cert.LibOneHotTake.reduce_andi_of_forall _ _ _ _ rfl (fun i => ?_) j
  rw [val_main_call0_v11_apply, val_main_call0_v7_apply, val_main_call0_v10_apply, wrapped_apply L hL,
    val_main_call0_v6_apply, val_main_call0_c_2_apply, val_main_call0_v9_apply, val_main_call0_v8_apply, val_main_call0_c_1_apply,
    Cert.LibOneHotTake.sge_zero_of_small _ (Nat.lt_of_lt_of_le (hL ⟨(i 0).val, (i 0).isLt⟩) (by norm_num)),
    Cert.LibOneHotTake.sle_of_small _ 31999 (by norm_num) (Nat.le_of_lt_succ (hL ⟨(i 0).val, (i 0).isLt⟩))]
  rfl

/-- The gather at row p reads the logit at the row's label. -/
theorem gather_apply (hL : ∀ p : Fin 8192, (L (ix1 p)).toNat < 32000) (p : Fin 8192) :
    val_main_call0_v13 (F := Ideal) X L (ix2 p (0 : Fin 1)) = X (ix2 p ⟨(L (ix1 p)).toNat, hL p⟩) := by
  unfold val_main_call0_v13
  show Host.gather (Cert.LibOneHotTake.rowTakeDims 8192 32000 Facts₀.gather_S8192x32000_S8192x1x1_S8192x1_n_1_0_0_1_2_11_wf) X
    (val_main_call0_v5 (F := Ideal) L) (ix2 p (0 : Fin 1)) = _
  refine (Cert.LibOneHotTake.gather_rowTake_apply (N := 8192) (C := 32000) (by norm_num) _ X (val_main_call0_v5 (F := Ideal) L) p).trans ?_
  have hidx : min (val_main_call0_v5 (F := Ideal) L (ix3 p (0 : Fin 1) (0 : Fin 1))).toInt.toNat (32000 - 1) = (L (ix1 p)).toNat := by
    rw [wrapped_apply L hL]
    exact Cert.LibOneHotTake.clamp_of_small _ 31999 (by norm_num) (Nat.le_of_lt_succ (hL _))
  exact congrArg X (funext fun a => Fin.ext (by
    match a with
    | ⟨0, _⟩ => rfl
    | ⟨1, _⟩ => exact hidx))

/-- The label logit of row p. -/
theorem labelLogit_apply (hL : ∀ p : Fin 8192, (L (ix1 p)).toNat < 32000) (p : Fin 8192) :
    val_main_v2 (F := Ideal) X L (ix1 p) = X (ix2 p ⟨(L (ix1 p)).toNat, hL p⟩) := by
  have hidx : idx_main_v2 (ix1 p) = ix2 p (0 : Fin 1) := by
    funext a
    match a with
    | ⟨0, _⟩ => apply Fin.ext; show p.val / 1 = p.val; omega
    | ⟨1, _⟩ => rfl
  rw [val_main_v2_apply, val_main_v1_apply, hidx, inRange_apply L hL, select_one, gather_apply X L hL]

/-- The sum of exps of row p: zero plus the sum over the row. -/
theorem sumExp_apply (p : Fin 8192) :
    val_main_v6 (F := Ideal) X (ix1 p) = Ideal.ofBits .f32 0x00000000#32 + sumExp (fun k => X (ix2 p k)) := by
  rw [val_main_v6_apply]
  refine congrArg₂ (· + ·) rfl (Finset.sum_congr rfl fun k _ => ?_)
  have hidx : idx_main_v6 (ix1 p) k = ix2 p k := by
    funext a
    match a with
    | ⟨0, _⟩ => rfl
    | ⟨1, _⟩ => rfl
  rw [val_main_v5_apply, val_main_v4_apply, val_main_v3_apply, val_main_cst_apply, hidx]
  rfl

/-- Row p's term: the log ratio of its sum of exps and its label logit. -/
theorem rowTerm_apply (hL : ∀ p : Fin 8192, (L (ix1 p)).toNat < 32000) (p : Fin 8192) :
    val_main_v16 (F := Ideal) X L (ix1 p)
      = logRatio (sumExp (fun k => X (ix2 p k))) (X (ix2 p ⟨(L (ix1 p)).toNat, hL p⟩)) := by
  have h2 := labelLogit_apply X L hL p
  have h6 := sumExp_apply X p
  have h7 : val_main_v7 (F := Ideal) (ix1 p) = Ideal.ofBits .f32 0x40800000#32 := by
    rw [val_main_v7_apply, val_main_cst_1_apply]; rfl
  have h10 : val_main_v10 (F := Ideal) (ix1 p) = Ideal.ofBits .f32 0x3E800000#32 := by
    rw [val_main_v10_apply, val_main_cst_2_apply]; rfl
  rw [val_main_v16_apply, val_main_v15_apply, val_main_v14_apply, val_main_v13_apply]
  rw [val_main_v12_apply, val_main_v11_apply, val_main_v9_apply, val_main_v8_apply]
  rw [h2]
  rw [h6]
  rw [h7, h10]
  rw [Ideal.ofBits_zero_f32, zero_add, Ideal.hostUnary_log_def, Ideal.hostDivf_def, Ideal.hostUnary_exp_def, Ideal.hostUnary_exp_def,
    Ideal.addf_def, Ideal.subf_def, Ideal.mulf_def, Ideal.mulf_def]
  rfl

/-- A sum over the indices of a vector of n entries is the sum over its n positions. -/
theorem sum_idx1 {M : Type} [AddCommMonoid M] {n : ℕ} (f : (⟨1, ![n]⟩ : Shape).Idx → M) : ∑ j, f j = ∑ p : Fin n, f (ix1 p) := by
  refine (Fintype.sum_equiv (⟨fun j => j 0, fun p => ix1 p, fun j => (eq_ix1 j).symm, fun _ => rfl⟩ :
    (⟨1, ![n]⟩ : Shape).Idx ≃ Fin n) _ _ fun j => ?_)
  exact congrArg f (eq_ix1 j)

/-- The reference's result: the mean of the row terms, negated. -/
theorem result_apply (hL : ∀ p : Fin 8192, (L (ix1 p)).toNat < 32000) (i : S_.Idx) :
    val_main_v19 (F := Ideal) X L i
      = -(Ideal.div (Ideal.ofBits .f32 0x00000000#32
            + ∑ p : Fin 8192, logRatio (sumExp (fun k => X (ix2 p k))) (X (ix2 p ⟨(L (ix1 p)).toNat, hL p⟩)))
          (Ideal.ofBits .f32 0x46000000#32)) := by
  rw [val_main_v19_apply, val_main_v18_apply, val_main_v17_apply, val_main_cst_3_apply, val_main_cst_4_apply, sum_idx1]
  have e : ∀ p : Fin 8192, val_main_v16 (F := Ideal) X L (ix1 p)
      = logRatio (sumExp (fun k => X (ix2 p k))) (X (ix2 p ⟨(L (ix1 p)).toNat, hL p⟩)) := rowTerm_apply X L hL
  simp only [e]
  rfl

end Cert.ReferenceIdeal.RefValue

end
-- ==== Proof.PreDecode.lean ====
/-
  What the precondition says of the two inputs.

  The printed precondition is the conjunction of two all-reductions: every |logit| is below the word of +∞, and every
  label is at least 0 and below 32000 as a signed 32-bit number. Read at an element: a logit whose absolute value is
  below some extended real is neither infinity, so it is a real number; a label word in [0, 32000) signed is below 32000
  unsigned.
-/
import proofs.«420632_j83451214561473_3_alg».proof.Pre_finite_inputs
import proofs.«420632_j83451214561473_3_alg».proof.Proof.Gen.Pre_finite_inputs
import proofs.«420632_j83451214561473_3_alg».proof.Proof.LibOneHotTake
import Idealize.ShloMosaic.Lib.ReduceAll
import Idealize.ShloMosaic.Lib.Pipeline.Value
import Idealize.ShloMosaic.Lib.ValueIdx
import Idealize.ShloMosaic.Lib.StableHlo.Predicate
import Idealize.ShloMosaic.PureOps.Ideal.Laws

noncomputable section

namespace Cert.Pre_finite_inputs.Decode

open Idealize.ShloMosaic Idealize.ShloMosaic.ValueIdx Cert.Pre_finite_inputs

instance : Subsingleton S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A scalar broadcast to any shape reads the scalar everywhere. -/
theorem bcast_scalar_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- Under the precondition every logit is a real number and every label word is below 32000. -/
theorem decode (X : FVec Ideal S8192x32000 .f32) (L : IVec S8192 32) (h : fn (F := Ideal) X L = fun _ => 1#1) :
    (∀ i : S8192x32000.Idx, ∃ r : ℝ, X i = (r : EReal)) ∧ (∀ p : Fin 8192, (L (ix1 p)).toNat < 32000) := by
  have h0 := congrFun h ix0
  dsimp only [fn] at h0
  obtain ⟨hfin, hlab⟩ := IntOp.andi_eq_one.mp h0
  constructor
  · intro i
    have e := Host.reduce_andi_all _ _ _ _ ix0 hfin i
    have hlt := of_decide_eq_true ((StableHlo.Predicate.ofBool_eq_one_iff _).mp e)
    exact real_of_abs_lt_top (X i) (lt_of_lt_of_le hlt le_top)
  · intro p
    have e := Host.reduce_andi_all _ _ _ _ ix0 hlab (ix1 p)
    obtain ⟨e0, e1⟩ := IntOp.andi_eq_one.mp e
    have hv0 : (broadcastInDim S8192 ![] Facts.bcast_S_S8192 (constantI S_ 32 0#32) : IVec S8192 32) (ix1 p) = 0#32 :=
      bcast_scalar_apply _ _ _
    have hv1 : (broadcastInDim S8192 ![] Facts.bcast_S_S8192 (constantI S_ 32 32000#32) : IVec S8192 32) (ix1 p) = 32000#32 :=
      bcast_scalar_apply _ _ _
    have e0' : IntOp.cmpi .sge (L (ix1 p)) 0#32 = 1#1 := by rw [← hv0]; exact e0
    have e1' : IntOp.cmpi .slt (L (ix1 p)) (BitVec.ofNat 32 32000) = 1#1 := by rw [← hv1]; exact e1
    exact Cert.LibOneHotTake.toNat_lt_of_signed_range (L (ix1 p)) 32000 (by norm_num) e0' e1'

end Cert.Pre_finite_inputs.Decode

end
-- ==== Proof.Bridge.lean ====
/-
  The kernel's result and the reference's are one extended real.

  With every label below 32000 the kernel's column entry at row p is zero minus the row's log ratio of its full sum of
  exps and its logit at the label (the two prefixes are over the whole row; "zero plus" drops); with every logit a real
  number each row's log ratio is a real number, so negating each row before the mean is negating the mean.
-/
import proofs.«420632_j83451214561473_3_alg».proof.Proof.KernelValue
import proofs.«420632_j83451214561473_3_alg».proof.Proof.RefValue
import proofs.«420632_j83451214561473_3_alg».proof.Proof.PreDecode

noncomputable section

namespace Cert.Proof.Bridge

open Idealize.ShloMosaic Idealize.ShloMosaic.TcCoe Idealize.SL.Sem Idealize.ShloMosaic.ValueIdx
open Cert.MarginLoss

/-- Row p's term: the log ratio of the row's sum of exps and its logit at the label. -/
def rowTerm (X : SX.Idx → EReal) (L : SL.Idx → BitVec 32) (hL : ∀ p : Fin 8192, (L (ix1 p)).toNat < 32000) (p : Fin 8192) : EReal :=
  logRatio (sumExp (fun k => X (ix2 p k))) (X (ix2 p ⟨(L (ix1 p)).toNat, hL p⟩))

variable (m : (ℓ : Loc Cert.KernelIdeal.nD Cert.KernelIdeal.τ Cert.KernelIdeal.sig) → Buf (Elt Ideal) ℓ)

/-- The kernel's column entry at row p is zero minus the row's term. -/
theorem lossAt_eq (c : Dev Cert.KernelIdeal.nD)
    (hL : ∀ p : Fin 8192, ((Cert.KernelIdeal.Value.labels m c) (ix1 p)).toNat < 32000) (p : Fin 8192) :
    Cert.KernelIdeal.Value.lossAt m c p.val
      = Ideal.ofBits .f32 0x00000000#32
        - rowTerm (Cert.KernelIdeal.Value.logits m c) (Cert.KernelIdeal.Value.labels m c) hL p := by
  unfold Cert.KernelIdeal.Value.lossAt rowTerm
  rw [labAt_of_lt, expPrefix_full, hotPrefix_full _ _ (hL p), Ideal.ofBits_zero_f32, zero_add, zero_add]

/-- The kernel's result is the negated mean of the row terms, for real logits and labels below 32000. -/
theorem kernel_total (c : Dev Cert.KernelIdeal.nD)
    (hX : ∀ i, ∃ r : ℝ, Cert.KernelIdeal.Value.logits m c i = (r : EReal))
    (hL : ∀ p : Fin 8192, ((Cert.KernelIdeal.Value.labels m c) (ix1 p)).toNat < 32000) (i : Cert.KernelIdeal.S_.Idx) :
    Cert.KernelIdeal.Value.total m c i
      = -(Ideal.div (Ideal.ofBits .f32 0x00000000#32
            + ∑ p : Fin 8192, rowTerm (Cert.KernelIdeal.Value.logits m c) (Cert.KernelIdeal.Value.labels m c) hL p)
          (Ideal.ofBits .f32 0x46000000#32)) := by
  rw [Cert.KernelIdeal.Value.total_apply]
  have e : ∀ p : Fin 8192, Cert.KernelIdeal.Value.lossAt m c p.val
      = Ideal.ofBits .f32 0x00000000#32
        - rowTerm (Cert.KernelIdeal.Value.logits m c) (Cert.KernelIdeal.Value.labels m c) hL p := lossAt_eq m c hL
  simp only [e]
  exact mean_neg_eq_neg_mean (fun p => rowTerm (Cert.KernelIdeal.Value.logits m c) (Cert.KernelIdeal.Value.labels m c) hL p)
    (fun p => logRatio_real _ _ (fun k => hX _))

end Cert.Proof.Bridge

end
-- ==== Proof.lean ====
/-
  The margin-softmax loss kernel against its jnp reference, over the extended reals.

  Both programs compute, from logits x [8192, 32000] and labels l [8192],
      − (1/8192) · Σ_p log ( exp(4·x(p, l_p)) / ( Σ_k exp(x(p, k)/4) − exp(x(p, l_p)/4) + exp(4·x(p, l_p)) ) ).
  The kernel streams each row in five column tiles of 6400, carrying two accumulators per row: the sum of exps, and the
  label logit gathered as the row masked by "this column is the label"; at the last tile it writes 0 − log(…) per row,
  and the host sums the column and divides by 8192. The reference gathers the label logit with take_along_axis, sums each
  row in one reduction, takes the mean of the logs and negates it.

  The statement is proved for finite logits and labels in their range 0 ≤ l < 32000. The range is needed: outside it the
  reference wraps a negative label or fills with NaN, while the kernel's mask matches no column. Finiteness is needed
  once: negating every row before the mean equals negating the mean only when no +∞ meets a −∞ in the sum, and for real
  logits every row's term is a real number (the denominator is at least exp(4·x(p, l_p)) > 0). Regrouping a row's sum
  into five tiles, and the masked sum being the entry at the label, hold for any extended reals.

  The three frames: the two kernel programs' are the generated frame proofs; the reference's is its run with the result
  dropped. The ideal pass rewrote nothing, so the kernel's idealization is its own text read over the extended reals.
-/
import proofs.«420632_j83451214561473_3_alg».proof.Defs
import proofs.«420632_j83451214561473_3_alg».proof.Proof.Gen.Kernel
import proofs.«420632_j83451214561473_3_alg».proof.Proof.Gen.Kernel.Skeleton
import proofs.«420632_j83451214561473_3_alg».proof.Proof.Gen.Kernel.Launch
import proofs.«420632_j83451214561473_3_alg».proof.Proof.Gen.Kernel.Points
import proofs.«420632_j83451214561473_3_alg».proof.Proof.Gen.Kernel.Frame
import proofs.«420632_j83451214561473_3_alg».proof.Proof.Gen.KernelIdeal
import proofs.«420632_j83451214561473_3_alg».proof.Proof.Gen.KernelIdeal.Skeleton
import proofs.«420632_j83451214561473_3_alg».proof.Proof.Gen.KernelIdeal.Launch
import proofs.«420632_j83451214561473_3_alg».proof.Proof.Gen.KernelIdeal.Points
import proofs.«420632_j83451214561473_3_alg».proof.Proof.Gen.KernelIdeal.Frame
import proofs.«420632_j83451214561473_3_alg».proof.Proof.Gen.ReferenceIdeal
import proofs.«420632_j83451214561473_3_alg».proof.Proof.Gen.Pre_finite_inputs
import proofs.«420632_j83451214561473_3_alg».proof.Proof.RefRun
import proofs.«420632_j83451214561473_3_alg».proof.Proof.RefRead
import proofs.«420632_j83451214561473_3_alg».proof.Proof.Bridge
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From inputs that agree, under the precondition, both programs end at the negated mean of the rows' log ratios. -/
theorem algebraic : Cert.algebraic_KernelIdeal_ReferenceIdeal := by
  intro m ρ m' ρ' hpre hagree
  refine ⟨fun c => Cert.KernelIdeal.Value.total m c, Cert.KernelIdeal.Value.run m ρ, ?_⟩
  refine (θ_run Cert.ReferenceIdeal.defs _ _).mono (fun _ h c => ⟨(h c).1.trans ?_, (h c).2⟩)
    (Cert.ReferenceIdeal.RunP.run (F := Ideal) m' ρ')
  obtain ⟨hX, hL⟩ := Cert.Pre_finite_inputs.Decode.decode _ _ (hpre c)
  rw [Cert.ReferenceIdeal.ReadP.val_main_v19_eq, (hagree c).1, (hagree c).2]
  funext i
  exact (Cert.ReferenceIdeal.RefValue.result_apply _ _ hL i).trans (Cert.Proof.Bridge.kernel_total m c hX hL i).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
